-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288x2 : Shape := ⟨2, ![524288, 2]⟩
abbrev S524288 : Shape := ⟨1, ![524288]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S524288x2 : S_.BroadcastsInDim S524288x2 (![] : Fin 0 → Fin S524288x2.rank)
  reducesTo_S524288x2_S_d0_1 : S524288x2.ReducesTo [0, 1] S_

variable [Facts]

def fn_part1 {F : FTy → Type} [FloatOps F] (main_v13 : IVec S_ 1) (main_v16 : IVec S524288x2 1) : IVec S_ 1 :=
  let main_c_5 : IVec S_ 1 := constantI S_ 1 1#1
  let main_v17 : IVec S_ 1 := (fun x v => Host.reduce IntOp.andi x v reducesTo_S524288x2_S_d0_1 h_S_) main_v16 main_c_5
  let main_v18 : IVec S_ 1 := andi main_v13 main_v17
  main_v18

def fn {F : FTy → Type} [FloatOps F] (main_arg0 : FVec F S524288x128 .f32) (main_arg1 : FVec F S524288x128 .f32) (main_arg2 : FVec F S524288x128 .f32) (main_arg3 : FVec F S524288x2 .f32) (main_arg4 : IVec S524288 32) (main_arg5 : IVec S524288 32) (main_arg6 : IVec S524288 32) (main_arg7 : IVec S524288 32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S524288x128 .f32 := Host.absf main_arg2
  let main_cst_2 : FVec F S_ .f32 := constant S_ .f32 0x7F800000#32
  let main_v10 : FVec F S524288x128 .f32 := broadcastInDim S524288x128 ![] bcast_S_S524288x128 main_cst_2
  let main_v11 : IVec S524288x128 1 := cmpf .olt main_v9 main_v10
  let main_c_3 : IVec S_ 1 := constantI S_ 1 1#1
  let main_v12 : IVec S_ 1 := (fun x v => Host.reduce IntOp.andi x v reducesTo_S524288x128_S_d0_1 h_S_) main_v11 main_c_3
  let main_v13 : IVec S_ 1 := andi main_v8 main_v12
  let main_v14 : FVec F S524288x2 .f32 := Host.absf main_arg3
  let main_cst_4 : FVec F S_ .f32 := constant S_ .f32 0x7F800000#32
  let main_v15 : FVec F S524288x2 .f32 := broadcastInDim S524288x2 ![] bcast_S_S524288x2 main_cst_4
  let main_v16 : IVec S524288x2 1 := cmpf .olt main_v14 main_v15
  fn_part1 (F := F) main_v13 main_v16
-- ==== Kernel.lean ====
abbrev S524288x128 : Shape := ⟨2, ![524288, 128]⟩
abbrev S524288x2 : Shape := ⟨2, ![524288, 2]⟩
abbrev S524288 : Shape := ⟨1, ![524288]⟩
abbrev S_ : Shape := ⟨0, ![]⟩
abbrev S524288x1 : Shape := ⟨2, ![524288, 1]⟩
abbrev S1x1 : Shape := ⟨2, ![1, 1]⟩
abbrev S4096x128 : Shape := ⟨2, ![4096, 128]⟩
abbrev S4096x2 : Shape := ⟨2, ![4096, 2]⟩
abbrev S4096 : Shape := ⟨1, ![4096]⟩
abbrev S4096x1 : Shape := ⟨2, ![4096, 1]⟩
abbrev S1 : Shape := ⟨1, ![1]⟩

abbrev nBuf : Space → Nat
  | .hbm => 21
  | .vmem => 10
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .hbm, ⟨3, _⟩ => ⟨S524288x2, .f32⟩
  | .hbm, ⟨4, _⟩ => ⟨S524288, .i32⟩
  | .hbm, ⟨5, _⟩ => ⟨S524288, .i32⟩
  | .hbm, ⟨6, _⟩ => ⟨S524288, .i32⟩
  | .hbm, ⟨7, _⟩ => ⟨S524288, .i32⟩
  | .hbm, ⟨8, _⟩ => ⟨S_, .i32⟩
  | .hbm, ⟨9, _⟩ => ⟨S524288, .i32⟩
  | .hbm, ⟨10, _⟩ => ⟨S524288, .i1⟩
  | .hbm, ⟨11, _⟩ => ⟨S_, .i32⟩
  | .hbm, ⟨12, _⟩ => ⟨S524288, .i32⟩
  | .hbm, ⟨13, _⟩ => ⟨S524288, .i32⟩
  | .hbm, ⟨14, _⟩ => ⟨S524288, .i32⟩
  | .hbm, ⟨15, _⟩ => ⟨S524288x1, .i32⟩
  | .hbm, ⟨16, _⟩ => ⟨S524288x2, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x2, .f32⟩
  | .local _ .vmem, ⟨7, _⟩ => ⟨S4096x2, .f32⟩
  | .local _ .vmem, ⟨8, _⟩ => ⟨S1x1, .f32⟩
  | .local _ .vmem, ⟨9, _⟩ => ⟨S1x1, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v46 : BitVec 1 := Scalar.cmpi .eq arg0 c127_i32
  let v47 : BitVec 32 := Scalar.extui v46
  let c0_i32_19 : BitVec 32 := 0#32
  let v48 : BitVec 1 := Scalar.cmpi .ne v47 c0_i32_19
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  inb_S4096x2_S4096x1_0_0 : ∀ a, (![0, 0] : Fin 2 → Nat) a + S4096x1.size a ≤ S4096x2.size a
  h_S4096x1 : 0 < S4096x1.numel
  shapeCasts_S4096x1_S4096x1 : S4096x1.ShapeCasts S4096x1
  inb_S4096x2_S4096x1_0_1 : ∀ a, (![0, 1] : Fin 2 → Nat) a + S4096x1.size a ≤ S4096x2.size a
  reduces_S4096x1_S1 : S4096x1.Reduces [0] S1
  shapeCasts_S1_S1x1 : S1.ShapeCasts S1x1
  shapeCasts_S1x1_S_ : S1x1.ShapeCasts S_
  gather_S524288x2_S524288x1_S524288x2_1_0_n_n_0_1_12_wf : GatherDims.WF S524288x2 S524288x1 S524288x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .f32 = 32 ∨ (Rect.block (s := S524288x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S524288x128.size a
  hwx0_2 : ∀ i : grid0.Coords, EltTy.bits .f32 = 32 ∨ (Rect.block (s := S524288x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x2.size a ≤ S524288x2.size a
  hwx0_3 : ∀ i : grid0.Coords, EltTy.bits .f32 = 32 ∨ (Rect.block (s := S524288x2) S4096x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S524288x2_S524288x1_S524288x2_1_0_n_n_0_1_12 : GatherDims S524288x2 S524288x1 S524288x2 where
  offsetDims := [1]
  collapsedSliceDims := [0]
  operandBatchingDims := []
  startIndicesBatchingDims := []
  startIndexMap := [0]
  indexVectorDim := 1
  sliceSizes := ![1, 2]
  wf := gather_S524288x2_S524288x1_S524288x2_1_0_n_n_0_1_12_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S524288x128 : Shape := ⟨2, ![524288, 128]⟩
abbrev S524288x2 : Shape := ⟨2, ![524288, 2]⟩
abbrev S524288 : Shape := ⟨1, ![524288]⟩
abbrev S_ : Shape := ⟨0, ![]⟩
abbrev S524288x1 : Shape := ⟨2, ![524288, 1]⟩

abbrev nBuf : Space → Nat
  | .hbm => 50
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .hbm, ⟨3, _⟩ => ⟨S524288x2, .f32⟩
  | .hbm, ⟨4, _⟩ => ⟨S524288, .i32⟩
  | .hbm, ⟨5, _⟩ => ⟨S524288, .i32⟩
  | .hbm, ⟨6, _⟩ => ⟨S524288, .i32⟩
  | .hbm, ⟨7, _⟩ => ⟨S524288, .i32⟩
  | .hbm, ⟨8, _⟩ => ⟨S_, .i32⟩
  | .hbm, ⟨9, _⟩ => ⟨S524288, .i32⟩
  | .hbm, ⟨10, _⟩ => ⟨S524288, .i1⟩
  | .hbm, ⟨11, _⟩ => ⟨S_, .i32⟩
  | .hbm, ⟨12, _⟩ => ⟨S524288, .i32⟩
  | .hbm, ⟨13, _⟩ => ⟨S524288, .i32⟩
  | .hbm, ⟨14, _⟩ => ⟨S524288, .i32⟩
  | .hbm, ⟨15, _⟩ => ⟨S524288x1, .i32⟩
  | .hbm, ⟨16, _⟩ => ⟨S524288x2, .f32⟩
  | .hbm, ⟨17, _⟩ => ⟨S524288x1, .f32⟩
  | .hbm, ⟨18, _⟩ => ⟨S524288, .f32⟩
  | .hbm, ⟨19, _⟩ => ⟨S524288, .f32⟩
  | .hbm, ⟨20, _⟩ => ⟨S524288, .f32⟩
  | .hbm, ⟨21, _⟩ => ⟨S524288x1, .f32⟩
  | .hbm, ⟨22, _⟩ => ⟨S524288, .f32⟩
  | .hbm, ⟨23, _⟩ => ⟨S524288, .f32⟩
  | .hbm, ⟨24, _⟩ => ⟨S524288, .f32⟩
  | .hbm, ⟨25, _⟩ => ⟨S524288x128, .f32⟩
  | .hbm, ⟨26, _⟩ => ⟨S524288x128, .f32⟩
  | .hbm, ⟨27, _⟩ => ⟨S_, .f32⟩
  | .hbm, ⟨28, _⟩ => ⟨S524288, .f32⟩
  | .hbm, ⟨29, _⟩ => ⟨S524288, .f32⟩
  | .hbm, ⟨30, _⟩ => ⟨S524288, .f32⟩
  | .hbm, ⟨31, _⟩ => ⟨S524288, .f32⟩
  | .hbm, ⟨32, _⟩ => ⟨S524288x128, .f32⟩
  | .hbm, ⟨33, _⟩ => ⟨S524288x128, .f32⟩
  | .hbm, ⟨34, _⟩ => ⟨S_, .f32⟩
  | .hbm, ⟨35, _⟩ => ⟨S524288, .f32⟩
  | .hbm, ⟨36, _⟩ => ⟨S524288, .f32⟩
  | .hbm, ⟨37, _⟩ => ⟨S524288, .f32⟩
  | .hbm, ⟨38, _⟩ => ⟨S524288, .f32⟩
  | .hbm, ⟨39, _⟩ => ⟨S524288, .f32⟩
  | .hbm, ⟨40, _⟩ => ⟨S524288, .f32⟩
  | .hbm, ⟨41, _⟩ => ⟨S524288, .f32⟩
  | .hbm, ⟨42, _⟩ => ⟨S524288, .f32⟩
  | .hbm, ⟨43, _⟩ => ⟨S524288, .f32⟩
  | .hbm, ⟨44, _⟩ => ⟨S524288, .f32⟩
  | .hbm, ⟨45, _⟩ => ⟨S524288, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  slices_S524288x2_S524288x1_0_0 : S524288x2.Slices ![0, 0] S524288x1
  shapeCasts_S524288x1_S524288 : S524288x1.ShapeCasts S524288
  slices_S524288x2_S524288x1_0_1 : S524288x2.Slices ![0, 1] S524288x1
  reducesTo_S524288x128_S524288_d1 : S524288x128.ReducesTo [1] S524288
  h_S_ : 0 < S_.numel
  reducesTo_S524288_S_d0 : S524288.ReducesTo [0] S_
  gather_S524288x2_S524288x1_S524288x2_1_0_n_n_0_1_12_wf : GatherDims.WF S524288x2 S524288x1 S524288x2 [1] [0] [] [0] [] 1 ![1, 2]

variable [Facts₀]

def gather_S524288x2_S524288x1_S524288x2_1_0_n_n_0_1_12 : GatherDims S524288x2 S524288x1 S524288x2 where
  offsetDims := [1]
  collapsedSliceDims := [0]
  operandBatchingDims := []
  startIndicesBatchingDims := []
  startIndexMap := [0]
  indexVectorDim := 1
  sliceSizes := ![1, 2]
  wf := gather_S524288x2_S524288x1_S524288x2_1_0_n_n_0_1_12_wf

class Facts : Prop extends Facts₀ where

variable [Facts]
-- ==== Proof.Pieces.lean ====
/-
  What the kernel body leaves behind at one grid point, as values.

  The body keeps a one-entry accumulator in a scratch buffer. At every point it computes the tile's column of
  per-sample losses (`tileLosses`: a pure function of the four input blocks), sums that column, and adds the sum to
  the accumulator; at the first point the accumulator is first reset to zero, and at the last point the accumulator
  is also copied to the one-entry output block. So, writing `step v acc` for "`acc` plus the sum of the column `v`":
    first point      scratch := step (tile's losses) 0
    middle points    scratch := step (tile's losses) (scratch before)
    last point       scratch := step (tile's losses) (scratch before),  output := the same.
  Each statement reads the stores the symbolic run of that case recorded back as one function.
-/
import proofs.«142574_j61770219651117_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The two columns of a block of targets, as the body loads them. -/
def tgtCol0 (x3 : Vec F S4096x2 .f32) : Vec F S4096x1 .f32 :=
  View.ld x3 (Rect.unit (s := S4096x2) ![0, 0] S4096x1.size inb_S4096x2_S4096x1_0_0)
def tgtCol1 (x3 : Vec F S4096x2 .f32) : Vec F S4096x1 .f32 :=
  View.ld x3 (Rect.unit (s := S4096x2) ![0, 1] S4096x1.size inb_S4096x2_S4096x1_0_1)

/-- The tile's column of per-sample losses, from the anchor, positive and negative embedding blocks and the targets' block. -/
def tileLosses (x0 x1 x2 : Vec F S4096x128 .f32) (x3 : Vec F S4096x2 .f32) : FVec F S4096x1 .f32 :=
  k0_pay3 x0 x1 x2 (tgtCol0 x3) (tgtCol1 x3)

/-- The accumulator after one more tile: the accumulator before plus the sum of the tile's losses. -/
abbrev step (v : FVec F S4096x1 .f32) (acc : Vec F S1x1 .f32) : Vec F S1x1 .f32 := k0_pay1 v acc

/-- The zero the first point resets the accumulator to. -/
abbrev zeroAcc : Vec F S1x1 .f32 := k0_pay2

/-- A middle point leaves the accumulator one tile further. -/
theorem scratch_B (c : Dev nD) (i : grid0.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S4096x2 .f32) (h4 : a4.IsWhole) (a5 : Memref sig .tc .vmem S1x1 .f32) (h5 : a5.IsWhole)
    (a6 : Memref sig .tc .vmem S1x1 .f32) (h6 : a6.IsWhole) (hc0 : ¬cond0_0 i) (hc1 : ¬cond0_1 i)
    (x0 x1 x2 : Vec F S4096x128 .f32) (x3 : Vec F S4096x2 .f32) (xs : Vec F S1x1 .f32) :
    sout0_B_0 c i a1 h1 a2 h2 a3 h3 a4 h4 a5 h5 a6 h6 hc0 hc1 x0 x1 x2 x3 xs = step (tileLosses x0 x1 x2 x3) xs := by
  unfold sout0_B_0
  rw [View.read_writes_eq_canon _ _ _ (scover0_B_0 c i a1 h1 a2 h2 a3 h3 a4 h4 a5 h5 a6 h6 hc0 hc1 x0 x1 x2 x3 xs)]
  unfold kernelRun0_B
  dsimp only
  sl_unfold_words
  rw [View.canon_unit_zero hz]
  simp only [View.readAt_eq_ld, h1.read_unread, h2.read_unread, h3.read_unread, h4.read_unread, h6.read_unread,
    View.ld_unit_zero (S := S4096x128) hz, View.ld_unit_zero (S := S1x1) hz]
  rfl

/-- The last point leaves the accumulator one tile further … -/
theorem scratch_C (c : Dev nD) (i : grid0.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S4096x2 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 x2 : Vec F S4096x128 .f32) (x3 : Vec F S4096x2 .f32) (xs : Vec F S1x1 .f32) :
    sout0_C_0 c i a1 h1 a2 h2 a3 h3 a4 h4 a5 h5 a6 h6 hc0 hc1 x0 x1 x2 x3 xs = step (tileLosses x0 x1 x2 x3) xs := by
  unfold sout0_C_0
  rw [View.read_writes_eq_canon _ _ _ (scover0_C_0 c i a1 h1 a2 h2 a3 h3 a4 h4 a5 h5 a6 h6 hc0 hc1 x0 x1 x2 x3 xs)]
  unfold kernelRun0_C
  dsimp only
  sl_unfold_words
  rw [View.canon_unit_zero hz]
  simp only [View.readAt_eq_ld, h1.read_unread, h2.read_unread, h3.read_unread, h4.read_unread, h6.read_unread,
    View.ld_unit_zero (S := S4096x128) hz, View.ld_unit_zero (S := S1x1) hz]
  rfl

/-- … and the output block holds that same accumulator (the body reads it back and stores it). -/
theorem output_C (c : Dev nD) (i : grid0.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S4096x2 .f32) (h4 : a4.IsWhole) (a5 : Memref sig .tc .vmem S1x1 .f32) (h5 : a5.IsWhole)
    (a6 : Memref sig .tc .vmem S1x1 .f32) (h6 : a6.IsWhole) (hc0 : ¬cond0_0 i) (hc1 : cond0_1 i)
    (x0 x1 x2 : Vec F S4096x128 .f32) (x3 : Vec F S4096x2 .f32) (xs : Vec F S1x1 .f32) :
    out0_C_4 c i a1 h1 a2 h2 a3 h3 a4 h4 a5 h5 a6 h6 hc0 hc1 x0 x1 x2 x3 xs = step (tileLosses x0 x1 x2 x3) xs := by
  unfold out0_C_4
  rw [View.read_writes_eq_canon _ _ _ (cover0_C_4 c i a1 h1 a2 h2 a3 h3 a4 h4 a5 h5 a6 h6 hc0 hc1 x0 x1 x2 x3 xs)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h6.read_unread,
    View.ld_unit_zero (S := S4096x128) hz, View.ld_unit_zero (S := S1x1) hz]
  rfl

/-- The first point resets the accumulator and then adds its tile. -/
theorem scratch_A (c : Dev nD) (i : grid0.Coords) (a1 : Memref sig .tc .vmem S4096x128 .f32) (h1 : a1.IsWhole)
    (a2 : Memref sig .tc .vmem S4096x128 .f32) (h2 : a2.IsWhole) (a3 : Memref sig .tc .vmem S4096x128 .f32) (h3 : a3.IsWhole)
    (a4 : Memref sig .tc .vmem S4096x2 .f32) (h4 : a4.IsWhole) (a5 : Memref sig .tc .vmem S1x1 .f32) (h5 : a5.IsWhole)
    (a6 : Memref sig .tc .vmem S1x1 .f32) (h6 : a6.IsWhole) (hc0 : cond0_0 i) (hc1 : ¬cond0_1 i)
    (x0 x1 x2 : Vec F S4096x128 .f32) (x3 : Vec F S4096x2 .f32) :
    sout0_A_0 c i a1 h1 a2 h2 a3 h3 a4 h4 a5 h5 a6 h6 hc0 hc1 x0 x1 x2 x3 = step (tileLosses x0 x1 x2 x3) zeroAcc := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S4096x128) hz]
  rfl

end Cert.KernelIdeal.Acc

end
-- ==== Proof.Loss.lean ====
/-
  The quantity both programs compute, written once over the argument arrays.

  For sample `r` of the batch (524288 samples, embeddings of 128 lanes) let
    d(a, b, r)   = sqrt (∑ₖ (a r k − b r k)²)                 the distance of two embedding rows,
    v(a, b, r)   = exp (−d(a, b, r))                          the predicted closeness,
    D(td, r, j)  = exp (−td r j)                              the target closeness, j = 0 (positive), 1 (negative),
    ℓ(r)         = D₀ · (D₀ − v(a, p, r))² + D₁ · (D₁ − v(a, n, r))²
  and the result is (∑ᵣ ℓ(r)) / 524288.  The squares are spelled as products, as both programs spell them.

  The batch sum is taken here once over all samples; the other reading, 128 tiles of 4096 consecutive samples each
  summed first, is the same extended real because addition of extended reals is commutative and associative
  (`sum_tiles`): no finiteness is needed for that regrouping.
-/
import Idealize.ShloMosaic.PureOps.Ideal
import Idealize.ShloMosaic.PureOps.Ideal.Laws
import Idealize.ShloMosaic.Lib.ValueIdx
import Idealize.ShloMosaic.Lib.ValueIdxRank1
import Mathlib.Algebra.BigOperators.Fin
import Mathlib.Algebra.BigOperators.Group.Finset.Basic
import Mathlib.Algebra.BigOperators.Group.Finset.Sigma
import Mathlib.Logic.Equiv.Fin.Basic

open scoped BigOperators

noncomputable section

namespace Cert.TripletLoss

open Idealize.ShloMosaic Idealize.ShloMosaic.ValueIdx

/-- The embedding arrays' shape and the targets' shape. -/
abbrev SEmb : Shape := ⟨2, ![524288, 128]⟩
abbrev STgt : Shape := ⟨2, ![524288, 2]⟩

/-- The squared distance of row `r` of `a` from row `r` of `b`. -/
def sqDist (a b : SEmb.Idx → EReal) (r : Fin 524288) : EReal :=
  ∑ k : Fin 128, (a (ix2 r k) - b (ix2 r k)) * (a (ix2 r k) - b (ix2 r k))

/-- One pair's term: the target closeness `D` weighting the squared error of the prediction `v`. -/
def pairTerm (D v : EReal) : EReal := D * ((D - v) * (D - v))

/-- A sample's loss from its four ingredients: the two targets `d₀`, `d₁` and the two squared distances `s₁`, `s₂`. -/
def lossOf (d0 d1 s1 s2 : EReal) : EReal :=
  pairTerm (Ideal.exp (-d0)) (Ideal.exp (-(Ideal.sqrt s1))) + pairTerm (Ideal.exp (-d1)) (Ideal.exp (-(Ideal.sqrt s2)))

/-- The same with every negation spelt as a subtraction from the float zero, as a kernel spells `−x`. -/
def lossOfSub (d0 d1 s1 s2 : EReal) : EReal :=
  pairTerm (Ideal.exp (Ideal.ofBits .f32 0x00000000#32 - d0)) (Ideal.exp (Ideal.ofBits .f32 0x00000000#32 - Ideal.sqrt s1))
    + pairTerm (Ideal.exp (Ideal.ofBits .f32 0x00000000#32 - d1)) (Ideal.exp (Ideal.ofBits .f32 0x00000000#32 - Ideal.sqrt s2))

/-- `0 − x = −x` over the extended reals, so the two spellings are one function. -/
theorem lossOfSub_eq (d0 d1 s1 s2 : EReal) : lossOfSub d0 d1 s1 s2 = lossOf d0 d1 s1 s2 := by
  unfold lossOfSub lossOf
  simp only [Ideal.ofBits_zero_f32, zero_sub]

/-- Sample `r`'s loss. -/
def rowLoss (a p n : SEmb.Idx → EReal) (td : STgt.Idx → EReal) (r : Fin 524288) : EReal :=
  lossOf (td (ix2 r (0 : Fin 2))) (td (ix2 r (1 : Fin 2))) (sqDist a p r) (sqDist a n r)

/-- The batch sum of the losses. -/
def lossSum (a p n : SEmb.Idx → EReal) (td : STgt.Idx → EReal) : EReal :=
  ∑ r : Fin 524288, rowLoss a p n td r

/-- The mean loss: the batch sum over the batch size `524288 = 2¹⁹` (the float word `0x49000000`). -/
def meanLoss (a p n : SEmb.Idx → EReal) (td : STgt.Idx → EReal) : EReal :=
  Ideal.div (lossSum a p n td) (Ideal.ofBits .f32 0x49000000#32)

/-- Sample `q` of tile `t` is sample `4096 t + q` of the batch. -/
theorem tile_lt (t : Fin 128) (q : Fin 4096) : t.val * 4096 + q.val < 524288 := by
  have := t.isLt; have := q.isLt; omega

abbrev tileRow (t : Fin 128) (q : Fin 4096) : Fin 524288 := ⟨t.val * 4096 + q.val, tile_lt t q⟩

/-- A sum over the batch is the sum over the 128 tiles of the sums over each tile's 4096 samples: the samples are
    re-indexed through the bijection `(t, q) ↦ 4096 t + q`, and a sum does not depend on the order of its terms. -/
theorem sum_tiles {M : Type*} [AddCommMonoid M] (f : Fin 524288 → M) :
    ∑ r, f r = ∑ t : Fin 128, ∑ q : Fin 4096, f (tileRow t q) := by
  rw [← Equiv.sum_comp (finProdFinEquiv (m := 128) (n := 4096)) f, Fintype.sum_prod_type]
  refine Finset.sum_congr rfl fun t _ => Finset.sum_congr rfl fun q _ => congrArg f (Fin.ext ?_)
  simp only [finProdFinEquiv_apply_val]
  omega

end Cert.TripletLoss

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.TileValue.lean ====
/-
  The body's arithmetic over the extended reals, read entry by entry.

  `tileLosses_apply`: sample `q` of a tile gets the loss of the specification, computed from row `q` of the three
  embedding blocks and row `q` of the targets' block. The row sums of squares are lane reductions (a plain sum over
  the 128 lanes), the kernel's `0 − x` is `−x`, and every other operation acts entry by entry.
  `step_apply`: adding a tile to the accumulator adds the sum of the tile's 4096 losses to its one entry.
-/
import proofs.«142574_j61770219651117_1_alg».proof.Proof.Pieces
import proofs.«142574_j61770219651117_1_alg».proof.Proof.Loss
import proofs.«142574_j61770219651117_1_alg».proof.Proof.LibKeepdims
import Idealize.ShloMosaic.PureOps.Ideal.Laws
import Idealize.ShloMosaic.Lib.ValueIdx
import Idealize.ShloMosaic.Lib.Pipeline.Value

set_option maxRecDepth 16384

open scoped BigOperators

noncomputable section

open Idealize.ShloMosaic Idealize.ShloMosaic.ValueIdx

namespace Cert.KernelIdeal.Acc

open Cert.KernelIdeal Cert.KernelIdeal.Gen Cert.TripletLoss

/-- The lane sums of a block, kept as a column. -/
def rowSumCol (v : FVec Ideal S4096x128 .f32) : FVec Ideal S4096x1 .f32 :=
  shapeCast S4096x1 (multiReduction .add [1] S4096 v 0x00000000#32 reduces_S4096x128_S4096 (.inl rfl) rfl)
    shapeCasts_S4096_S4096x1

/-- Entry `(q, 0)` of that column is the sum of row `q`. -/
theorem rowSumCol_apply (v : FVec Ideal S4096x128 .f32) (q : Fin 4096) :
    rowSumCol v (ix2 q (0 : Fin 1)) = ∑ k : Fin 128, v (ix2 q k) := by
  unfold rowSumCol
  refine (Cert.Keepdims.shapeCast_a_a1_apply _ shapeCasts_S4096_S4096x1 q (0 : Fin 1)).trans ?_
  refine (Ideal.multiReduction_add_single v _ reduces_S4096x128_S4096 (.inl rfl) rfl (ix1 q)).trans ?_
  refine Finset.sum_congr rfl fun k _ => congrArg v (funext fun a => Fin.ext ?_)
  match a with
  | ⟨0, _⟩ => rfl
  | ⟨1, _⟩ => rfl

/-- The targets' columns at sample `q` (the body casts each loaded column to its own shape first). -/
theorem tgtCol0_apply (x3 : Vec Ideal S4096x2 .f32) (q : Fin 4096) :
    shapeCast S4096x1 (tgtCol0 x3) shapeCasts_S4096x1_S4096x1 (ix2 q (0 : Fin 1)) = x3 (ix2 q (0 : Fin 2)) := by
  refine (congrFun (shapeCast_self (tgtCol0 x3) shapeCasts_S4096x1_S4096x1) _).trans ?_
  unfold tgtCol0
  refine congrArg x3 (funext fun a => Fin.ext ?_)
  match a with
  | ⟨0, _⟩ => show 0 + 1 * q.val = q.val; omega
  | ⟨1, _⟩ => rfl
theorem tgtCol1_apply (x3 : Vec Ideal S4096x2 .f32) (q : Fin 4096) :
    shapeCast S4096x1 (tgtCol1 x3) shapeCasts_S4096x1_S4096x1 (ix2 q (0 : Fin 1)) = x3 (ix2 q (1 : Fin 2)) := by
  refine (congrFun (shapeCast_self (tgtCol1 x3) shapeCasts_S4096x1_S4096x1) _).trans ?_
  unfold tgtCol1
  refine congrArg x3 (funext fun a => Fin.ext ?_)
  match a with
  | ⟨0, _⟩ => show 0 + 1 * q.val = q.val; omega
  | ⟨1, _⟩ => rfl

/-- Row `q`'s squared distance inside a tile. -/
def blkSqDist (x y : Vec Ideal S4096x128 .f32) (q : Fin 4096) : EReal :=
  ∑ k : Fin 128, (x (ix2 q k) - y (ix2 q k)) * (x (ix2 q k) - y (ix2 q k))

/-- Sample `q` of the tile: the loss of its two targets and its two squared distances. -/
theorem tileLosses_apply (x0 x1 x2 : Vec Ideal S4096x128 .f32) (x3 : Vec Ideal S4096x2 .f32) (q : Fin 4096) :
    tileLosses x0 x1 x2 x3 (ix2 q (0 : Fin 1))
      = lossOf (x3 (ix2 q (0 : Fin 2))) (x3 (ix2 q (1 : Fin 2))) (blkSqDist x0 x1 q) (blkSqDist x0 x2 q) := by
  -- the body's term at the entry, by unfolding alone: the kernel's spelling over its four ingredients
  have e : tileLosses x0 x1 x2 x3 (ix2 q (0 : Fin 1))
      = lossOfSub (shapeCast S4096x1 (tgtCol0 x3) shapeCasts_S4096x1_S4096x1 (ix2 q (0 : Fin 1)))
          (shapeCast S4096x1 (tgtCol1 x3) shapeCasts_S4096x1_S4096x1 (ix2 q (0 : Fin 1)))
          (rowSumCol (mulf (subf x0 x1) (subf x0 x1)) (ix2 q (0 : Fin 1)))
          (rowSumCol (mulf (subf x0 x2) (subf x0 x2)) (ix2 q (0 : Fin 1))) := rfl
  refine e.trans ((lossOfSub_eq _ _ _ _).trans ?_)
  exact congr (congr (congr (congrArg lossOf (tgtCol0_apply x3 q)) (tgtCol1_apply x3 q))
    (rowSumCol_apply (mulf (subf x0 x1) (subf x0 x1)) q)) (rowSumCol_apply (mulf (subf x0 x2) (subf x0 x2)) q)

/-- The one index of a `[1, 1]` block. -/
theorem idx11 (j : S1x1.Idx) : j = ix2 (0 : Fin 1) (0 : Fin 1) :=
  funext fun a => Fin.ext (by
    match a with
    | ⟨0, _⟩ => have h : (j 0).val < 1 := (j 0).isLt; show (j 0).val = 0; omega
    | ⟨1, _⟩ => have h : (j 1).val < 1 := (j 1).isLt; show (j 1).val = 0; omega)

/-- A column's total kept as a `[1, 1]` block. -/
def colTotal (v : FVec Ideal S4096x1 .f32) : FVec Ideal S1x1 .f32 :=
  shapeCast S1x1 (multiReduction .add [0] S1 v 0x00000000#32 reduces_S4096x1_S1 (.inl rfl) rfl) shapeCasts_S1_S1x1

/-- Its one entry is the sum of the column's 4096 entries. -/
theorem colTotal_apply (v : FVec Ideal S4096x1 .f32) :
    colTotal v (ix2 (0 : Fin 1) (0 : Fin 1)) = ∑ q : Fin 4096, v (ix2 q (0 : Fin 1)) := by
  unfold colTotal
  refine (shapeCast_apply _ shapeCasts_S1_S1x1 _ (ix1 (0 : Fin 1)) (by
    rw [Shape.rowMajor_val_two, Shape.rowMajor_val_one]; rfl)).trans ?_
  refine (Ideal.multiReduction_add_total v _ reduces_S4096x1_S1 (fun b => by
    match b with | ⟨0, _⟩ => rfl) (.inl rfl) rfl (ix1 (0 : Fin 1))).trans ?_
  rw [sum_idx2]
  exact Finset.sum_congr rfl fun q _ => Fintype.sum_unique _ |>.trans (congrArg v (by
    rw [Subsingleton.elim (default : Fin 1) 0]))

/-- One more tile: the accumulator's entry plus the sum of the tile's losses. -/
theorem step_apply (v : FVec Ideal S4096x1 .f32) (acc : Vec Ideal S1x1 .f32) (j : S1x1.Idx) :
    step v acc j = acc (ix2 (0 : Fin 1) (0 : Fin 1)) + ∑ q : Fin 4096, v (ix2 q (0 : Fin 1)) := by
  rw [idx11 j]
  have e : step v acc (ix2 (0 : Fin 1) (0 : Fin 1))
      = shapeCast S1x1 (addf acc (colTotal v)) shapeCasts_S1x1_S1x1 (ix2 (0 : Fin 1) (0 : Fin 1)) := rfl
  refine e.trans ((congrFun (shapeCast_self _ shapeCasts_S1x1_S1x1) _).trans ?_)
  exact congrArg (acc (ix2 (0 : Fin 1) (0 : Fin 1)) + ·) (colTotal_apply v)

/-- The reset value's entry is zero. -/
theorem zeroAcc_apply (j : S1x1.Idx) : (zeroAcc (F := Ideal)) j = 0 := by
  have e : (zeroAcc (F := Ideal)) j
      = shapeCast S1x1 (broadcast S1x1 (Ideal.ofBits .f32 0x00000000#32)) shapeCasts_S1x1_S1x1 j := rfl
  refine e.trans ((congrFun (shapeCast_self _ shapeCasts_S1x1_S1x1) _).trans ?_)
  exact Ideal.ofBits_zero_f32

end Cert.KernelIdeal.Acc

end
-- ==== Proof.Blocks.lean ====
/-
  The input blocks as pieces of the argument arrays.

  The grid has 128 points; at point `t` each embedding window stages rows `4096 t … 4096 t + 4095` of its array (all
  128 lanes), and the targets' window the same rows (both columns) of the gathered targets. The gathered targets are
  the array the host operations before the region leave: the gather of `triplets_dis` at the wrapped batch indices.
-/
import proofs.«142574_j61770219651117_1_alg».proof.Proof.Pieces
import proofs.«142574_j61770219651117_1_alg».proof.Proof.Loss
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.TripletLoss

variable {F : FTy → Type} [FloatOps F]
variable (m : (ℓ : Loc nD τ sig) → Buf (Elt F) ℓ)

/-- The three embedding arrays and the gathered targets, as the region finds them, at their literal types. -/
abbrev embA (c : Dev nD) : Vec F S524288x128 .f32 := V m c main_arg0
abbrev embP (c : Dev nD) : Vec F S524288x128 .f32 := V m c main_arg1
abbrev embN (c : Dev nD) : Vec F S524288x128 .f32 := V m c main_arg2
abbrev tgts (c : Dev nD) : Vec F S524288x2 .f32 := V m c main_v6

/-- The input blocks at a point, at their literal types. -/
abbrev blkA (c : Dev nD) (t : Fin cfg0.N) : Vec F S4096x128 .f32 := iblk m c 0 t
abbrev blkP (c : Dev nD) (t : Fin cfg0.N) : Vec F S4096x128 .f32 := iblk m c 1 t
abbrev blkN (c : Dev nD) (t : Fin cfg0.N) : Vec F S4096x128 .f32 := iblk m c 2 t
abbrev blkT (c : Dev nD) (t : Fin cfg0.N) : Vec F S4096x2 .f32 := iblk m c 3 t

/-- A grid point as a tile number. -/
abbrev tileOf (t : Fin cfg0.N) : Fin 128 := ⟨t.val, lt_of_lt_of_eq t.isLt N_0⟩

/-- Every input window's block index at point `t` is `(t, 0)`: decided over the grid. -/
theorem index_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) :=
  (by decide +kernel : ∀ t : Fin grid0.N, _)

theorem blkA_apply (c : Dev nD) (t : Fin cfg0.N) (q : Fin 4096) (k : Fin 128) :
    blkA m c t (ix2 q k) = embA m c (ix2 (tileRow (tileOf t) q) k) := by
  show iblk m c 0 t (ix2 q k) = V m c main_arg0 _
  unfold iblk
  rw [View.read_apply]
  show V m c main_arg0 _ = V m c main_arg0 _
  congr 1
  funext a
  apply Fin.ext
  match a with
  | ⟨0, _⟩ => show win0_0.index t 0 * 4096 + 1 * q.val = t.val * 4096 + q.val; rw [(index_facts t).1.1]; omega
  | ⟨1, _⟩ => show win0_0.index t 1 * 128 + 1 * k.val = k.val; rw [(index_facts t).1.2]; omega

theorem blkP_apply (c : Dev nD) (t : Fin cfg0.N) (q : Fin 4096) (k : Fin 128) :
    blkP m c t (ix2 q k) = embP m c (ix2 (tileRow (tileOf t) q) k) := by
  show iblk m c 1 t (ix2 q k) = V m c main_arg1 _
  unfold iblk
  rw [View.read_apply]
  show V m c main_arg1 _ = V m c main_arg1 _
  congr 1
  funext a
  apply Fin.ext
  match a with
  | ⟨0, _⟩ => show win0_1.index t 0 * 4096 + 1 * q.val = t.val * 4096 + q.val; rw [(index_facts t).2.1.1]; omega
  | ⟨1, _⟩ => show win0_1.index t 1 * 128 + 1 * k.val = k.val; rw [(index_facts t).2.1.2]; omega

theorem blkN_apply (c : Dev nD) (t : Fin cfg0.N) (q : Fin 4096) (k : Fin 128) :
    blkN m c t (ix2 q k) = embN m c (ix2 (tileRow (tileOf t) q) k) := by
  show iblk m c 2 t (ix2 q k) = V m c main_arg2 _
  unfold iblk
  rw [View.read_apply]
  show V m c main_arg2 _ = V m c main_arg2 _
  congr 1
  funext a
  apply Fin.ext
  match a with
  | ⟨0, _⟩ => show win0_2.index t 0 * 4096 + 1 * q.val = t.val * 4096 + q.val; rw [(index_facts t).2.2.1.1]; omega
  | ⟨1, _⟩ => show win0_2.index t 1 * 128 + 1 * k.val = k.val; rw [(index_facts t).2.2.1.2]; omega

theorem blkT_apply (c : Dev nD) (t : Fin cfg0.N) (q : Fin 4096) (k : Fin 2) :
    blkT m c t (ix2 q k) = tgts m c (ix2 (tileRow (tileOf t) q) k) := by
  show iblk m c 3 t (ix2 q k) = V m c main_v6 _
  unfold iblk
  rw [View.read_apply]
  show V m c main_v6 _ = V m c main_v6 _
  congr 1
  funext a
  apply Fin.ext
  match a with
  | ⟨0, _⟩ => show win0_3.index t 0 * 4096 + 1 * q.val = t.val * 4096 + q.val; rw [(index_facts t).2.2.2.1]; omega
  | ⟨1, _⟩ => show win0_3.index t 1 * 2 + 1 * k.val = k.val; rw [(index_facts t).2.2.2.2]; omega

/-- The batch indices with the negative ones wrapped by the batch size, as a column: what the gather is given. -/
def wrappedIdx (x4 : (⟨S524288, .i32⟩ : BufTy).Contents (Elt F)) : (⟨S524288x1, .i32⟩ : BufTy).Contents (Elt F) :=
  broadcastInDim S524288x1 ![0] bcast_S524288_S524288x1_0
    (select (cmpi .slt x4 (broadcastInDim S524288 ![] bcast_S_S524288 (constantI S_ 32 0#32)))
      (addi x4 (broadcastInDim S524288 ![] bcast_S_S524288 (constantI S_ 32 524288#32))) x4)

/-- The gathered targets: `triplets_dis` gathered at the wrapped batch indices. -/
def gathered (x3 : (⟨S524288x2, .f32⟩ : BufTy).Contents (Elt F)) (x4 : (⟨S524288, .i32⟩ : BufTy).Contents (Elt F)) :
    (⟨S524288x2, .f32⟩ : BufTy).Contents (Elt F) :=
  Host.gather gather_S524288x2_S524288x1_S524288x2_1_0_n_n_0_1_12 x3 (wrappedIdx x4)

/-- The region finds the gathered targets in the fourth window's array. -/
theorem tgts_eq (c : Dev nD) :
    tgts m c = gathered (m ((c : Thread nD τ).loc main_arg3)) (m ((c : Thread nD τ).loc main_arg4)) := by
  show V m c main_v6 = _
  dsimp only [Gen.V, Gen.V0]
  simp only [Gen.hostOps0, List.flatten_cons, List.flatten_nil, List.append_nil, List.cons_append, List.nil_append]
  after_results
  rfl

theorem embA_eq (c : Dev nD) : embA m c = m ((c : Thread nD τ).loc main_arg0) := V_main_arg0 m c
theorem embP_eq (c : Dev nD) : embP m c = m ((c : Thread nD τ).loc main_arg1) := V_main_arg1 m c
theorem embN_eq (c : Dev nD) : embN m c = m ((c : Thread nD τ).loc main_arg2) := V_main_arg2 m c

end Cert.KernelIdeal.Acc

end
-- ==== Proof.AccumStep.lean ====
/-
  One grid point's effect on the accumulator, as an equation between entries.

  At the first point the scratch entry becomes zero plus the tile's total; at every later point it becomes the entry
  the point before left plus the tile's total; at the last point the output block's entry receives that same value.
  A tile's total is the sum of the 4096 losses the body computes from the blocks staged at that point.
-/
import proofs.«142574_j61770219651117_1_alg».proof.Proof.TileValue
import proofs.«142574_j61770219651117_1_alg».proof.Proof.Blocks
import Mathlib.Algebra.BigOperators.Fin
import Mathlib.Algebra.BigOperators.Intervals

set_option maxRecDepth 16384

open scoped BigOperators

noncomputable section

open Idealize.ShloMosaic Idealize.ShloMosaic.TcCoe Idealize.SL.Sem Idealize.ShloMosaic.ValueIdx

namespace Cert.KernelIdeal.Acc

open Cert.KernelIdeal Cert.KernelIdeal.Gen Cert.TripletLoss

variable (m : (ℓ : Loc nD τ sig) → Buf (Elt Ideal) ℓ)

/-- Tile `t`'s total: the sum of the 4096 losses the body computes from the blocks at point `t`. -/
def tileTotal (c : Dev nD) (t : Fin cfg0.N) : EReal :=
  ∑ q : Fin 4096, tileLosses (iblk m c 0 t) (iblk m c 1 t) (iblk m c 2 t) (iblk m c 3 t) (ix2 q (0 : Fin 1))

/-- The entry of the `[1, 1]` blocks. -/
abbrev e00 : S1x1.Idx := ix2 (0 : Fin 1) (0 : Fin 1)

/-- The first point leaves zero plus its tile's total in the scratch entry. -/
theorem scratch_first (c : Dev nD) (t : Fin cfg0.N) (h0 : t.val % 128 = 0) (h1 : ¬t.val % 128 = 127) (j : S1x1.Idx) :
    (outsAt0 m c t.val t.isLt).2 j = 0 + tileTotal m c t := by
  rw [outsAt0_A m c t h0 h1]
  dsimp only
  refine (congrFun (scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun hh => h1 ((hcond0_1 t).mp hh)) (iblk m c 0 t) (iblk m c 1 t) (iblk m c 2 t) (iblk m c 3 t)) j).trans ?_
  refine (step_apply _ _ j).trans ?_
  exact congrArg (· + tileTotal m c t) (zeroAcc_apply _)

/-- A middle point adds its tile's total to what the point before left. -/
theorem scratch_middle (c : Dev nD) (t : Fin cfg0.N) (h0 : ¬t.val % 128 = 0) (h1 : ¬t.val % 128 = 127) (j : S1x1.Idx) :
    (outsAt0 m c t.val t.isLt).2 j
      = (outsAt0 m c (t.val - 1) (Nat.lt_of_le_of_lt (Nat.sub_le _ _) t.isLt)).2 e00 + tileTotal m c t := by
  rw [outsAt0_B m c t h0 h1]
  dsimp only
  refine (congrFun (scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (fun hh => h1 ((hcond0_1 t).mp hh)) (iblk m c 0 t) (iblk m c 1 t) (iblk m c 2 t) (iblk m c 3 t) (outsAt0 m c (t.val - 1) (Nat.lt_of_le_of_lt (Nat.sub_le _ _) t.isLt)).2) j).trans ?_
  exact step_apply _ _ j

/-- So does the last point … -/
theorem scratch_last (c : Dev nD) (t : Fin cfg0.N) (h0 : ¬t.val % 128 = 0) (h1 : t.val % 128 = 127) (j : S1x1.Idx) :
    (outsAt0 m c t.val t.isLt).2 j
      = (outsAt0 m c (t.val - 1) (Nat.lt_of_le_of_lt (Nat.sub_le _ _) t.isLt)).2 e00 + tileTotal m c t := by
  rw [outsAt0_C m c t h0 h1]
  dsimp only
  refine (congrFun (scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2) j).trans ?_
  exact step_apply _ _ j

/-- … which also stores that new value into the output block. -/
theorem output_last (c : Dev nD) (t : Fin cfg0.N) (h0 : ¬t.val % 128 = 0) (h1 : t.val % 128 = 127) (j : S1x1.Idx) :
    (outsAt0 m c t.val t.isLt).1 j
      = (outsAt0 m c (t.val - 1) (Nat.lt_of_le_of_lt (Nat.sub_le _ _) t.isLt)).2 e00 + tileTotal m c t := by
  rw [outsAt0_C m c t h0 h1]
  dsimp only
  refine (congrFun (output_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t) (outsAt0 m c (t.val - 1) (Nat.lt_of_le_of_lt (Nat.sub_le _ _) t.isLt)).2) j).trans ?_
  exact step_apply _ _ j

end Cert.KernelIdeal.Acc

end
-- ==== Proof.AccumSum.lean ====
/-
  Sums of the tiles' totals.

  The running total after point `n` adds the tiles' totals in point order from zero; it is the sum over the initial
  segment `0 … n` of the tiles. Each tile's total is the sum of the specification's losses over the tile's 4096
  samples (the blocks are rows `4096 t … 4096 t + 4095` of the arrays), so the running total after the last of the
  128 points is the batch sum of the losses: summing tile by tile is summing over the batch.
-/
import proofs.«142574_j61770219651117_1_alg».proof.Proof.AccumStep
import Mathlib.Algebra.BigOperators.Fin
import Mathlib.Algebra.BigOperators.Intervals

set_option maxRecDepth 16384

open scoped BigOperators

noncomputable section

open Idealize.ShloMosaic Idealize.ShloMosaic.TcCoe Idealize.SL.Sem Idealize.ShloMosaic.ValueIdx

namespace Cert.KernelIdeal.Acc

open Cert.KernelIdeal Cert.KernelIdeal.Gen Cert.TripletLoss

variable (m : (ℓ : Loc nD τ sig) → Buf (Elt Ideal) ℓ)

/-- The running total after point `n`, added in point order from zero. -/
def runningTotal (c : Dev nD) : (n : ℕ) → n < cfg0.N → EReal
  | 0, h => 0 + tileTotal m c ⟨0, h⟩
  | n + 1, h => runningTotal c n (Nat.lt_of_succ_lt h) + tileTotal m c ⟨n + 1, h⟩

theorem runningTotal_zero (c : Dev nD) (h : 0 < cfg0.N) : runningTotal m c 0 h = 0 + tileTotal m c ⟨0, h⟩ := rfl
theorem runningTotal_succ (c : Dev nD) (n : ℕ) (h : n + 1 < cfg0.N) :
    runningTotal m c (n + 1) h = runningTotal m c n (Nat.lt_of_succ_lt h) + tileTotal m c ⟨n + 1, h⟩ := rfl

/-- Tile `t`'s total, for `t` any natural number: zero past the grid. -/
def tileTotalN (c : Dev nD) (t : ℕ) : EReal := if ht : t < cfg0.N then tileTotal m c ⟨t, ht⟩ else 0

/-- A running total is the sum over an initial segment of the tiles. -/
theorem runningTotal_eq (c : Dev nD) : ∀ (n : ℕ) (h : n < cfg0.N),
    runningTotal m c n h = ∑ t ∈ Finset.range (n + 1), tileTotalN m c t
  | 0, h => by
    rw [Finset.sum_range_one, runningTotal_zero, zero_add]
    unfold tileTotalN
    rw [dif_pos h]
  | n + 1, h => by
    rw [Finset.sum_range_succ, ← runningTotal_eq c n (Nat.lt_of_succ_lt h), runningTotal_succ]
    unfold tileTotalN
    rw [dif_pos h]

/-- A tile's total is the specification's losses summed over the tile's samples. -/
theorem tileTotal_eq (c : Dev nD) (t : Fin cfg0.N) :
    tileTotal m c t = ∑ q : Fin 4096, rowLoss (embA m c) (embP m c) (embN m c) (tgts m c) (tileRow (tileOf t) q) := by
  unfold tileTotal
  refine Finset.sum_congr rfl fun q _ => ?_
  refine (tileLosses_apply (blkA m c t) (blkP m c t) (blkN m c t) (blkT m c t) q).trans ?_
  unfold rowLoss
  have sAP : blkSqDist (blkA m c t) (blkP m c t) q = sqDist (embA m c) (embP m c) (tileRow (tileOf t) q) :=
    Finset.sum_congr rfl fun k _ => by rw [blkA_apply, blkP_apply]
  have sAN : blkSqDist (blkA m c t) (blkN m c t) q = sqDist (embA m c) (embN m c) (tileRow (tileOf t) q) :=
    Finset.sum_congr rfl fun k _ => by rw [blkA_apply, blkN_apply]
  rw [sAP, sAN, blkT_apply, blkT_apply]

/-- The sum of all 128 tiles' totals is the batch sum of the losses. -/
theorem sum_tileTotals (c : Dev nD) :
    ∑ t ∈ Finset.range 128, tileTotalN m c t = lossSum (embA m c) (embP m c) (embN m c) (tgts m c) := by
  rw [← Fin.sum_univ_eq_sum_range (fun t => tileTotalN m c t) 128]
  unfold lossSum
  rw [sum_tiles]
  refine Finset.sum_congr rfl fun t _ => ?_
  have ht : t.val < cfg0.N := lt_of_lt_of_eq t.isLt N_0.symm
  unfold tileTotalN
  rw [dif_pos ht, tileTotal_eq]

end Cert.KernelIdeal.Acc

end
-- ==== Proof.AccumRun.lean ====
/-
  The accumulator over the whole grid.

  After point `n` the scratch entry is the running total of the tiles `0 … n`: by induction on the point over the
  one-point equations. The output block is written at the last point only and then holds the running total too, which
  after the 128th point is the batch sum of the losses.
-/
import proofs.«142574_j61770219651117_1_alg».proof.Proof.AccumSum
import Mathlib.Algebra.BigOperators.Fin
import Mathlib.Algebra.BigOperators.Intervals

set_option maxRecDepth 16384

open scoped BigOperators

noncomputable section

open Idealize.ShloMosaic Idealize.ShloMosaic.TcCoe Idealize.SL.Sem Idealize.ShloMosaic.ValueIdx

namespace Cert.KernelIdeal.Acc

open Cert.KernelIdeal Cert.KernelIdeal.Gen Cert.TripletLoss

variable (m : (ℓ : Loc nD τ sig) → Buf (Elt Ideal) ℓ)

attribute [local irreducible] Cert.KernelIdeal.Gen.outsAt0

/-- The one-point equations again, the point given as a number below the grid's size. -/
theorem first_at (c : Dev nD) (n : ℕ) (h : n < cfg0.N) (h0 : n % 128 = 0) (h1 : ¬n % 128 = 127) (j : S1x1.Idx) :
    (outsAt0 m c n h).2 j = 0 + tileTotal m c ⟨n, h⟩ := scratch_first m c ⟨n, h⟩ h0 h1 j
theorem middle_at (c : Dev nD) (n : ℕ) (h : n + 1 < cfg0.N) (h1 : ¬(n + 1) % 128 = 127) (j : S1x1.Idx) :
    (outsAt0 m c (n + 1) h).2 j = (outsAt0 m c n (Nat.lt_of_succ_lt h)).2 e00 + tileTotal m c ⟨n + 1, h⟩ :=
  scratch_middle m c ⟨n + 1, h⟩ (by have hN : cfg0.N = 128 := N_0; show ¬(n + 1) % 128 = 0; omega) h1 j
theorem last_at (c : Dev nD) (n : ℕ) (h : n + 1 < cfg0.N) (h1 : (n + 1) % 128 = 127) (j : S1x1.Idx) :
    (outsAt0 m c (n + 1) h).2 j = (outsAt0 m c n (Nat.lt_of_succ_lt h)).2 e00 + tileTotal m c ⟨n + 1, h⟩ :=
  scratch_last m c ⟨n + 1, h⟩ (by have hN : cfg0.N = 128 := N_0; show ¬(n + 1) % 128 = 0; omega) h1 j
theorem output_at (c : Dev nD) (n : ℕ) (h : n + 1 < cfg0.N) (h1 : (n + 1) % 128 = 127) (j : S1x1.Idx) :
    (outsAt0 m c (n + 1) h).1 j = (outsAt0 m c n (Nat.lt_of_succ_lt h)).2 e00 + tileTotal m c ⟨n + 1, h⟩ :=
  output_last m c ⟨n + 1, h⟩ (by have hN : cfg0.N = 128 := N_0; show ¬(n + 1) % 128 = 0; omega) h1 j

/-- After point `n` the scratch entry is the running total. -/
theorem scratch_eq (c : Dev nD) : ∀ (n : ℕ) (h : n < cfg0.N) (j : S1x1.Idx), (outsAt0 m c n h).2 j = runningTotal m c n h
  | 0, h, j => (first_at m c 0 h (Nat.zero_mod _) (by omega) j).trans (runningTotal_zero m c h).symm
  | n + 1, h, j => by
    rw [runningTotal_succ, ← scratch_eq c n (Nat.lt_of_succ_lt h) e00]
    by_cases h1 : (n + 1) % 128 = 127
    · exact last_at m c n h h1 j
    · exact middle_at m c n h h1 j

/-- At the last point the output block's entry is the batch sum of the losses. -/
theorem output_eq (c : Dev nD) (n : ℕ) (h : n + 1 < cfg0.N) (h1 : n + 1 = 127) (j : S1x1.Idx) :
    (outsAt0 m c (n + 1) h).1 j = lossSum (embA m c) (embP m c) (embN m c) (tgts m c) := by
  rw [output_at m c n h (by omega) j, scratch_eq m c n (Nat.lt_of_succ_lt h) e00, ← runningTotal_succ,
    runningTotal_eq, ← sum_tileTotals]
  rw [show n + 1 + 1 = 128 from by omega]

end Cert.KernelIdeal.Acc

end
-- ==== Proof.KernelRun.lean ====
/-
  The idealized kernel's run, read: its result is the mean loss of the argument arrays.

  The output window's one block is the whole `[1, 1]` result array and is written back once, after the last point,
  with the running total, which is the batch sum of the losses. The two host operations after the region flatten that
  array to a scalar and divide it by the batch size.
-/
import proofs.«142574_j61770219651117_1_alg».proof.Proof.AccumRun
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.TripletLoss

variable (m : (ℓ : Loc nD τ sig) → Buf (Elt Ideal) ℓ) (ρ : Dev nD → PrngReg)

attribute [local irreducible] Cert.KernelIdeal.Gen.outsAt0

theorem lastLt : 127 < cfg0.N := by rw [show cfg0.N = 128 from N_0]; decide

/-- The last grid point. -/
abbrev tLast : Fin cfg0.N := ⟨127, lastLt⟩

/-- The batch sum of the losses over the arrays the region finds. -/
abbrev total (c : Dev nD) : EReal := lossSum (embA m c) (embP m c) (embN m c) (tgts m c)

/-- The result array's final contents: the batch sum in its one entry. -/
abbrev resultArr (c : Dev nD) : Buf (Elt Ideal) ((c : Thread nD τ).loc main_v7) := fun _ => total m c

/-- The one write-back, after the last point, writes the batch sum: block (0, 0) of the array is the array. -/
theorem flushed_eq (c : Dev nD) (t : Fin cfg0.N) (hf : (cfg0.win 4).flush t = true) :
    (dats m 0 c).flushed 4 t = ((cfg0.win 4).blk t).view.read (Elt Ideal) (resultArr m c) := by
  have hN : cfg0.N = 128 := N_0
  have h127 : t.val = 127 := by have := (flush0_4 t).mp hf; have := t.isLt; omega
  have e : (outsAt0 m c t.val t.isLt).1 = resultArr m c := by
    obtain ⟨tv, htv⟩ := t
    obtain ⟨n, rfl⟩ : ∃ n, tv = n + 1 := ⟨126, h127⟩
    exact funext fun j => output_eq m c n htv h127 j
  obtain rfl : t = tLast := Fin.ext h127
  show (cfg0.win 4).cut (grid0.coords tLast) ((dats m 0 c).after 4 tLast) = _
  rw [after0_4, e]
  have hz' : (fun a => win0_4.index tLast a * main_v7.ty.shape.size a) = fun _ => 0 :=
    funext fun a => by fin_cases a <;> decide +kernel
  exact (Memref.read_access_unit_zero (Elt Ideal) main_v7 hz' (fun a => by rw [congrFun hz' a]; simp) (resultArr m c)).symm

/-- So the result array ends holding the batch sum. -/
theorem final_out (c : Dev nD) : (dats m 0 c).arrAt 4 cfg0.N = resultArr m c :=
  (dats m 0 c).arrAt_eq_of_cover 4 (resultArr m c) (flushed_eq m c) fun i =>
    ⟨tLast, (flush0_4 tLast).mpr rfl, by
      show i ∈ ((View.whole main_v7).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The host operations after the region leave the mean loss in the result scalar. -/
theorem tail_eq (c : Dev nD) :
    Pipeline.afterTail₀ cfgs (dats m) 0 (V0 m) [hostOps1] c main_v9
      = fun _ => Ideal.div (total m c) (Ideal.ofBits .f32 0x49000000#32) := by
  unfold Pipeline.afterTail₀
  show StableHlo.after hostOps1 _ (Proc.devRef .tc main_v9) = _
  after_results
  funext j
  have hw : Pipeline.withArrays (cfgs 0).spec c (V0 m c) (fun w => (dats m 0 c).arrAt w (cfgs 0).N) (Proc.tc.devRef main_v7)
      = resultArr m c :=
    (Pipeline.withArrays_arr spec0 launch0.win.arr_inj c (V0 m c) _ 4).trans (final_out m c)
  show Ideal.div (shapeCast S_ (Pipeline.withArrays (cfgs 0).spec c (V0 m c) (fun w => (dats m 0 c).arrAt w (cfgs 0).N)
      (Proc.tc.devRef main_v7)) shapeCasts_S1x1_S_ j) (Ideal.ofBits .f32 0x49000000#32) = _
  rw [hw]
  refine congrArg (Ideal.div · (Ideal.ofBits .f32 0x49000000#32)) ?_
  exact shapeCast_apply (resultArr m c) shapeCasts_S1x1_S_ j (ix2 (0 : Fin 1) (0 : Fin 1)) (by
    show (S1x1.rowMajor (ix2 (0 : Fin 1) (0 : Fin 1))).val = (S_.rowMajor j).val
    rw [Shape.rowMajor_val_two]
    have h := (S_.rowMajor j).isLt
    have hn : S_.numel = 1 := rfl
    show 0 * 1 + 0 = _
    omega)

/-- The kernel's result as a function of the argument arrays: the mean loss, the targets gathered first. -/
def result (c : Dev nD) : Buf (Elt Ideal) ((c : Thread nD τ).loc main_v9) := fun _ =>
  meanLoss (m ((c : Thread nD τ).loc main_arg0)) (m ((c : Thread nD τ).loc main_arg1)) (m ((c : Thread nD τ).loc main_arg2))
    (gathered (m ((c : Thread nD τ).loc main_arg3)) (m ((c : Thread nD τ).loc main_arg4)))

theorem tail_eq_result (c : Dev nD) :
    Pipeline.afterTail₀ cfgs (dats m) 0 (V0 m) [hostOps1] c main_v9 = result m c := by
  rw [tail_eq]
  unfold result meanLoss total
  rw [embA_eq, embP_eq, embN_eq, tgts_eq]

/-- The run, read: the result scalar at the mean loss, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      ((h c).2 main_v9 (Pipeline.mem_restRefs_of main_v9 (by decide) (by decide))).trans (tail_eq_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Acc

end
-- ==== Proof.RefValue.lean ====
/-
  The reference program computes the specification.

  Its result is the quotient, by the batch size, of zero plus the sum over the batch of a per-sample array; read at
  sample `r` that array is the specification's loss of `r`: the two targets are entries `(r, 0)` and `(r, 1)` of the
  gathered targets (a slice and a reshape only re-address them), and each squared distance is zero plus the sum over the
  128 lanes of the squared differences. The host's negation, exponential and square root are the same functions of an
  extended real as the specification's.
-/
import proofs.«142574_j61770219651117_1_alg».proof.Proof.Gen.ReferenceIdeal.Read
import proofs.«142574_j61770219651117_1_alg».proof.Proof.Loss
import Idealize.ShloMosaic.PureOps.Ideal.Laws
import Idealize.ShloMosaic.Lib.ValueIdx
import Idealize.ShloMosaic.Lib.ValueIdxRank1

set_option maxRecDepth 16384

open scoped BigOperators

noncomputable section

open Idealize.ShloMosaic Idealize.ShloMosaic.ValueIdx

namespace Cert.RefLoss

open Cert.ReferenceIdeal Cert.ReferenceIdeal.Read Cert.TripletLoss

variable (x0 x1 x2 : (⟨S524288x128, .f32⟩ : BufTy).Contents (Elt Ideal))
  (x3 : (⟨S524288x2, .f32⟩ : BufTy).Contents (Elt Ideal)) (x4 : (⟨S524288, .i32⟩ : BufTy).Contents (Elt Ideal))

/-- The gathered targets, as the reference computes them. -/
abbrev gatheredRef : STgt.Idx → EReal := val_main_v6 (F := Ideal) x3 x4

/-- Column 0 of the gathered targets, sliced and flattened, at sample `r`. -/
theorem target0_apply (r : Fin 524288) :
    val_main_v8 (F := Ideal) x3 x4 (ix1 r) = gatheredRef x3 x4 (ix2 r (0 : Fin 2)) := by
  refine (val_main_v8_apply x3 x4 (ix1 r)).trans ((val_main_v7_apply x3 x4 _).trans ?_)
  refine congrArg (val_main_v6 (F := Ideal) x3 x4) (funext fun a => Fin.ext ?_)
  match a with
  | ⟨0, _⟩ => show r.val / 1 = r.val; exact Nat.div_one _
  | ⟨1, _⟩ => rfl

/-- Column 1 likewise. -/
theorem target1_apply (r : Fin 524288) :
    val_main_v12 (F := Ideal) x3 x4 (ix1 r) = gatheredRef x3 x4 (ix2 r (1 : Fin 2)) := by
  refine (val_main_v12_apply x3 x4 (ix1 r)).trans ((val_main_v11_apply x3 x4 _).trans ?_)
  refine congrArg (val_main_v6 (F := Ideal) x3 x4) (funext fun a => Fin.ext ?_)
  match a with
  | ⟨0, _⟩ => show r.val / 1 = r.val; exact Nat.div_one _
  | ⟨1, _⟩ => rfl

/-- The first norm's sum of squares at sample `r`. -/
theorem sqDist0_apply (r : Fin 524288) :
    val_main_call0_v1 (F := Ideal) x0 x1 (ix1 r) = sqDist x0 x1 r := by
  refine (val_main_call0_v1_apply x0 x1 (ix1 r)).trans ?_
  have z : ∀ i, (val_main_call0_cst (F := Ideal)) i = 0 := fun _ => Ideal.ofBits_zero_f32
  rw [z, zero_add]
  refine Finset.sum_congr rfl fun k _ => ?_
  have ei : idx_main_call0_v1 (ix1 r) k = ix2 r k := funext fun a => Fin.ext (by
    match a with
    | ⟨0, _⟩ => rfl
    | ⟨1, _⟩ => rfl)
  rw [ei]
  rfl

/-- The second norm's. -/
theorem sqDist1_apply (r : Fin 524288) :
    val_main_call1_v1 (F := Ideal) x0 x2 (ix1 r) = sqDist x0 x2 r := by
  refine (val_main_call1_v1_apply x0 x2 (ix1 r)).trans ?_
  have z : ∀ i, (val_main_call1_cst (F := Ideal)) i = 0 := fun _ => Ideal.ofBits_zero_f32
  rw [z, zero_add]
  refine Finset.sum_congr rfl fun k _ => ?_
  have ei : idx_main_call1_v1 (ix1 r) k = ix2 r k := funext fun a => Fin.ext (by
    match a with
    | ⟨0, _⟩ => rfl
    | ⟨1, _⟩ => rfl)
  rw [ei]
  rfl

/-- The per-sample array at sample `r` is the specification's loss. -/
theorem loss_apply (r : Fin 524288) :
    val_main_v29 (F := Ideal) x0 x1 x2 x3 x4 (ix1 r) = rowLoss x0 x1 x2 (gatheredRef x3 x4) r := by
  rw [val_main_v29_apply, val_main_v25_apply, val_main_v28_apply, val_main_v24_apply, val_main_v27_apply,
    val_main_v23_apply, val_main_v26_apply, val_main_v10_apply, val_main_v14_apply, val_main_v18_apply, val_main_v22_apply,
    val_main_v9_apply, val_main_v13_apply, val_main_v17_apply, val_main_v21_apply, val_main_v16_apply, val_main_v20_apply,
    target0_apply, target1_apply, sqDist0_apply, sqDist1_apply]
  rfl

/-- The reference's result is the mean loss. -/
theorem result_eq :
    val_main_v31 (F := Ideal) x0 x1 x2 x3 x4 = fun _ => meanLoss x0 x1 x2 (gatheredRef x3 x4) := by
  funext i
  have e : val_main_v31 (F := Ideal) x0 x1 x2 x3 x4 i
      = Ideal.div (val_main_v30 (F := Ideal) x0 x1 x2 x3 x4 i) (Ideal.ofBits .f32 0x49000000#32) := rfl
  refine e.trans (congrArg (Ideal.div · (Ideal.ofBits .f32 0x49000000#32)) ?_)
  refine (val_main_v30_apply x0 x1 x2 x3 x4 i).trans ?_
  have z : ∀ i, (val_main_cst (F := Ideal)) i = 0 := fun _ => Ideal.ofBits_zero_f32
  rw [z, zero_add]
  unfold lossSum
  rw [← Equiv.sum_comp (idxEquiv1 (n := 524288)).symm (val_main_v29 (F := Ideal) x0 x1 x2 x3 x4)]
  exact Finset.sum_congr rfl fun r _ => loss_apply x0 x1 x2 x3 x4 r

end Cert.RefLoss

end
-- ==== Proof.Bridge.lean ====
/-
  The two programs gather the targets by the same operation.

  Both @main functions begin with the same nine host operations: the batch indices, the negative ones wrapped by the
  batch size, made a column, and the gather of `triplets_dis` at them. The kernel's spelling of that array and the
  reference's are one term of the two arguments.
-/
import proofs.«142574_j61770219651117_1_alg».proof.Proof.Blocks
import proofs.«142574_j61770219651117_1_alg».proof.Proof.RefValue

set_option maxRecDepth 16384

noncomputable section

open Idealize.ShloMosaic

namespace Cert.Bridge

theorem gathered_eq (x3 : (⟨Cert.KernelIdeal.S524288x2, .f32⟩ : BufTy).Contents (Elt Ideal))
    (x4 : (⟨Cert.KernelIdeal.S524288, .i32⟩ : BufTy).Contents (Elt Ideal)) :
    Cert.KernelIdeal.Acc.gathered (F := Ideal) x3 x4 = Cert.RefLoss.gatheredRef x3 x4 := rfl

end Cert.Bridge

end
-- ==== Proof.lean ====
/-
  The certificate of the exp-weighted triplet-distance loss kernel against its jnp reference.

  Both programs compute the mean over the batch of the per-sample loss
    ℓ(r) = D₀ (D₀ − v(a, p, r))² + D₁ (D₁ − v(a, n, r))²,   v(a, b, r) = exp (−‖a_r − b_r‖),   D_j = exp (−td[batch_index] r j)
  (Proof/Loss.lean). The reference sums ℓ over the whole batch at once. The kernel walks the batch in 128 tiles of
  4096 samples, adds each tile's total to a one-entry accumulator, and writes the accumulator out after the last tile;
  the host then divides by the batch size. The two sums agree over the extended reals because addition there is
  commutative and associative, so the precondition's finiteness is never used.

  Frames: the kernel's two frames are the generated ones; the reference's is its generated run with the result dropped.
  The idealization rewrote nothing, so `preserves` is `True`.
-/
import proofs.«142574_j61770219651117_1_alg».proof.Defs
import proofs.«142574_j61770219651117_1_alg».proof.Proof.Gen.Kernel
import proofs.«142574_j61770219651117_1_alg».proof.Proof.Gen.Kernel.Skeleton
import proofs.«142574_j61770219651117_1_alg».proof.Proof.Gen.Kernel.Launch
import proofs.«142574_j61770219651117_1_alg».proof.Proof.Gen.Kernel.Points
import proofs.«142574_j61770219651117_1_alg».proof.Proof.Gen.Kernel.Frame
import proofs.«142574_j61770219651117_1_alg».proof.Proof.Gen.KernelIdeal
import proofs.«142574_j61770219651117_1_alg».proof.Proof.Gen.KernelIdeal.Skeleton
import proofs.«142574_j61770219651117_1_alg».proof.Proof.Gen.KernelIdeal.Launch
import proofs.«142574_j61770219651117_1_alg».proof.Proof.Gen.KernelIdeal.Points
import proofs.«142574_j61770219651117_1_alg».proof.Proof.Gen.KernelIdeal.Frame
import proofs.«142574_j61770219651117_1_alg».proof.Proof.Gen.ReferenceIdeal
import proofs.«142574_j61770219651117_1_alg».proof.Proof.Gen.Pre_finite_inputs
import proofs.«142574_j61770219651117_1_alg».proof.Proof.Gen.ReferenceIdeal.Run
import proofs.«142574_j61770219651117_1_alg».proof.Proof.Gen.ReferenceIdeal.Read
import proofs.«142574_j61770219651117_1_alg».proof.Proof.KernelRun
import proofs.«142574_j61770219651117_1_alg».proof.Proof.RefValue
import proofs.«142574_j61770219651117_1_alg».proof.Proof.Bridge
import Idealize.ShloMosaic.Adequacy
import Idealize.ShloMosaic.Init

noncomputable section

namespace Cert.Proof

open Idealize.ShloMosaic Idealize.SL.Sem Cert.Kernel

/-- Run from memories agreeing on the arguments, both idealized programs end with the mean loss in their result. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.RefLoss.result_eq, (hagree c).1, (hagree c).2.1,
    (hagree c).2.2.1, (hagree c).2.2.2.1, (hagree c).2.2.2.2.1, ← Cert.Bridge.gathered_eq]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
